-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S2x600000 32) (main_arg6 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S5000x128 : Shape := ⟨2, ![5000, 128]⟩
abbrev S600000x128 : Shape := ⟨2, ![600000, 128]⟩
abbrev S10000x128 : Shape := ⟨2, ![10000, 128]⟩
abbrev S10000x1 : Shape := ⟨2, ![10000, 1]⟩
abbrev S50000x1 : Shape := ⟨2, ![50000, 1]⟩
abbrev S1x128 : Shape := ⟨2, ![1, 128]⟩
abbrev S5000x1 : Shape := ⟨2, ![5000, 1]⟩
abbrev S1000x128 : Shape := ⟨2, ![1000, 128]⟩
abbrev S1000 : Shape := ⟨1, ![1000]⟩
abbrev S1000x1 : Shape := ⟨2, ![1000, 1]⟩

abbrev nBuf : Space → Nat
  | .hbm => 95
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x600000, .i32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S600000, .f32⟩
  | .hbm, ⟨40, _⟩ => ⟨S50000, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S600000x1, .f32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x1, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S600000x1, .f32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S50000x1, .f32⟩
  | .hbm, ⟨77, _⟩ => ⟨S1x128, .f32⟩
  | .hbm, ⟨78, _⟩ => ⟨S50000x128, .f32⟩
  | .hbm, ⟨79, _⟩ => ⟨S_, .f32⟩
  | .hbm, ⟨80, _⟩ => ⟨S1000x128, .f32⟩
  | .hbm, ⟨81, _⟩ => ⟨S50000x1, .i32⟩
  | .hbm, ⟨82, _⟩ => ⟨S1000x128, .f32⟩
  | .hbm, ⟨83, _⟩ => ⟨S_, .f32⟩
  | .hbm, ⟨84, _⟩ => ⟨S50000, .f32⟩
  | .hbm, ⟨85, _⟩ => ⟨S_, .f32⟩
  | .hbm, ⟨86, _⟩ => ⟨S1000, .f32⟩
  | .hbm, ⟨87, _⟩ => ⟨S50000x1, .i32⟩
  | .hbm, ⟨88, _⟩ => ⟨S1000, .f32⟩
  | .hbm, ⟨89, _⟩ => ⟨S_, .f32⟩
  | .hbm, ⟨90, _⟩ => ⟨S1000, .f32⟩
  | .hbm, ⟨91, _⟩ => ⟨S1000, .f32⟩
  | .hbm, ⟨92, _⟩ => ⟨S1000x1, .f32⟩
  | .hbm, ⟨93, _⟩ => ⟨S1000x128, .f32⟩
  | .hbm, ⟨94, _⟩ => ⟨S1000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S10000x128, .f32⟩
  | .local _ .vmem, ⟨26, _⟩ => ⟨S10000x128, .f32⟩
  | .local _ .vmem, ⟨27, _⟩ => ⟨S10000x1, .f32⟩
  | .local _ .vmem, ⟨28, _⟩ => ⟨S10000x1, .f32⟩
  | .local _ .vmem, ⟨29, _⟩ => ⟨S10000x128, .f32⟩
  | .local _ .vmem, ⟨30, _⟩ => ⟨S10000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![60], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S600000_S600000x1 : S600000.ShapeCasts S600000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S600000x128.size a
  hwx1_0 : ∀ i : grid1.Coords, EltTy.bits .f32 = 32 ∨ (Rect.block (s := S600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S600000x1.size a
  hwx1_1 : ∀ i : grid1.Coords, EltTy.bits .f32 = 32 ∨ (Rect.block (s := S600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S600000x128.size a
  hwx1_2 : ∀ i : grid1.Coords, EltTy.bits .f32 = 32 ∨ (Rect.block (s := S600000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S600000x128.size a
  hwx4_0 : ∀ i : grid4.Coords, EltTy.bits .f32 = 32 ∨ (Rect.block (s := S600000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S600000x1.size a
  hwx4_1 : ∀ i : grid4.Coords, EltTy.bits .f32 = 32 ∨ (Rect.block (s := S600000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S600000x128.size a
  hwx4_2 : ∀ i : grid4.Coords, EltTy.bits .f32 = 32 ∨ (Rect.block (s := S600000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S2x600000, .i32⟩
  | 6 => ⟨S50000, .i32⟩
  | 7 => ⟨S1x600000, .i32⟩
  | 8 => ⟨S600000, .i32⟩
  | 9 => ⟨S1x600000, .i32⟩
  | 10 => ⟨S600000, .i32⟩
  | 11 => ⟨S50000x128, .f32⟩
  | 12 => ⟨S_, .f32⟩
  | 13 => ⟨S600000, .f32⟩
  | 14 => ⟨S_, .f32⟩
  | 15 => ⟨S50000, .f32⟩
  | 16 => ⟨S600000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S600000x1, .f32⟩
  | 51 => ⟨S600000x128, .f32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S50000x128, .f32⟩
  | 70 => ⟨S50000x128, .f32⟩
  | 71 => ⟨S50000x128, .f32⟩
  | 72 => ⟨S50000x128, .f32⟩
  | 73 => ⟨S_, .f32⟩
  | 74 => ⟨S600000, .f32⟩
  | 75 => ⟨S_, .f32⟩
  | 76 => ⟨S50000, .f32⟩
  | 77 => ⟨S600000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S600000, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S600000x1, .f32⟩
  | 112 => ⟨S600000x128, .f32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S50000, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .i1⟩
  | 1 => ⟨S_, .f32⟩
  | 2 => ⟨S50000x128, .f32⟩
  | 3 => ⟨S50000x128, .f32⟩
  | 4 => ⟨S50000x128, .f32⟩
  | 5 => ⟨S_, .f32⟩
  | 6 => ⟨S1000x128, .f32⟩
  | 7 => ⟨S50000x1, .i32⟩
  | 8 => ⟨S1000x128, .f32⟩
  | 9 => ⟨S_, .f32⟩
  | 10 => ⟨S50000, .f32⟩
  | 11 => ⟨S_, .f32⟩
  | 12 => ⟨S1000, .f32⟩
  | 13 => ⟨S50000x1, .i32⟩
  | 14 => ⟨S1000, .f32⟩
  | 15 => ⟨S_, .f32⟩
  | 16 => ⟨S1000, .f32⟩
  | 17 => ⟨S1000, .f32⟩
  | 18 => ⟨S1000x1, .f32⟩
  | 19 => ⟨S1000x128, .f32⟩
  | 20 => ⟨S1000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_15 : Ref sig .tc := ⟨.hbm, 92, rfl⟩
abbrev main_v68 : Ref sig .tc := ⟨.hbm, 93, rfl⟩
abbrev main_v69 : Ref sig .tc := ⟨.hbm, 94, rfl⟩
abbrev main_c_16 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_c_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_cst_21 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_23 : Ref sig .tc := ⟨.hbm, 137, rfl⟩
abbrev main_v105 : Ref sig .tc := ⟨.hbm, 138, rfl⟩
abbrev main_cst_24 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_25 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1000x128 : S_.BroadcastsInDim S1000x128 (![] : Fin 0 → Fin S1000x128.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf

class Facts : Prop extends Facts₀ where

variable [Facts]
-- ==== Proof.Spec.lean ====
/-
  The three whole-array functions the six kernel regions compute, at the ideal values (every float an extended
  real, every operation exact), over the literal shapes of this program.

  * `mm x w`: the product of a [50000, 128] matrix with a [128, 128] matrix, entry (p, q) the sum over k of x (p, k) · w (k, q).
  * `es h c`: each row e of a [600000, 128] array scaled by the one entry c (e, 0) of a [600000, 1] column.
  * `fin s h c b`: v = (s + h · c (row)) + b (column), then v where v > 0 and 0.01 · v elsewhere (the 0.01 the binary32 word
    the program carries).
-/
import Idealize.ShloMosaic.PureOps.Ideal.Laws
import Idealize.ShloMosaic.Lib.ValueIdx

noncomputable section

open scoped BigOperators
open Idealize.ShloMosaic Idealize.ShloMosaic.ValueIdx

namespace Cert.Spec

/-- The matrix product, entry by entry: the sum over the contraction coordinate. -/
def mm (x : FVec Ideal ⟨2, ![50000, 128]⟩ .f32) (w : FVec Ideal ⟨2, ![128, 128]⟩ .f32) : FVec Ideal ⟨2, ![50000, 128]⟩ .f32 :=
  fun j => ∑ k : Fin 128, x (ix2 (j 0) k) * w (ix2 k (j 1))

/-- Row e of `h` times the row's coefficient `c (e, 0)`. -/
def es (h : FVec Ideal ⟨2, ![600000, 128]⟩ .f32) (c : FVec Ideal ⟨2, ![600000, 1]⟩ .f32) : FVec Ideal ⟨2, ![600000, 128]⟩ .f32 :=
  fun j => h j * c (ix2 (j 0) (0 : Fin 1))

/-- The value before the activation: the aggregated row plus the node's own row times its coefficient, plus the bias. -/
def pre (s h : FVec Ideal ⟨2, ![50000, 128]⟩ .f32) (c : FVec Ideal ⟨2, ![50000, 1]⟩ .f32) (b : FVec Ideal ⟨2, ![1, 128]⟩ .f32) :
    FVec Ideal ⟨2, ![50000, 128]⟩ .f32 :=
  fun j => s j + h j * c (ix2 (j 0) (0 : Fin 1)) + b (ix2 (0 : Fin 1) (j 1))

/-- The leaky activation of one extended real: itself where it is above zero, 0.01 times itself elsewhere. -/
def leaky (v : Ideal .f32) : Ideal .f32 :=
  Scalar.select (FloatOps.cmpf .ogt v (Ideal.ofBits .f32 0x00000000#32)) v (Ideal.ofBits .f32 0x3C23D70A#32 * v)

/-- A layer's output: the leaky activation of `pre`, entry by entry. -/
def fin (s h : FVec Ideal ⟨2, ![50000, 128]⟩ .f32) (c : FVec Ideal ⟨2, ![50000, 1]⟩ .f32) (b : FVec Ideal ⟨2, ![1, 128]⟩ .f32) :
    FVec Ideal ⟨2, ![50000, 128]⟩ .f32 :=
  fun j => leaky (pre s h c b j)

end Cert.Spec

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.RegMatmulA.lean ====
/-
  Region 0 (the first layer's linear map): ten blocks of 5000 rows, each the product of that block of rows with the whole weight matrix; together the whole product.
-/
import proofs.«130153_j27066883899917_1_alg».proof.Proof.Gen.KernelIdeal.Frame
import proofs.«130153_j27066883899917_1_alg».proof.Proof.Spec
import proofs.«130153_j27066883899917_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegMatmulA

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The zero offset vector, as the constant function. -/
theorem hz : (![0, 0] : Fin 2 → Nat) = fun _ => 0 := funext fun a => by fin_cases a <;> rfl

/-- The body's arithmetic read at one entry: both roundings are the identity on extended reals, and the product into
    the zero accumulator at (p, q) is the sum over the contraction coordinate k of x0 (p, k) · x1 (k, q). -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  exact Cert.Lib.PlainMatmul.apply dot_S5000x128_S128x128_S5000x128_1_0_0_1_n_n rfl rfl rfl rfl rfl rfl none _ _ p q

/-- The index maps over the grid: the left operand's row block is the output's row block and its column block is 0; the
    weight matrix's block is (0, 0) at every point; the output's column block is 0 and its row block runs over 0 … 9. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ 0 ≤ win0_2.index t (0 : Fin 2) ∧ win0_2.index t (0 : Fin 2) ≤ 9 :=
  (by decide +kernel : ∀ t : Fin grid0.N, _)

/-- Every row block of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the two input arrays: entry (p, q) of the block is row
    (block row) · 5000 + p of x against column q of w, and it depends on row (block row) · 5000 + p of x and on
    column q of w only. -/
theorem flushed_eq (c : Dev nD) (t : Fin cfg0.N) :
    (dat0 V c).flushed 2 t = ((cfg0.win 2).blk t).view.read (Elt Ideal) (Cert.Spec.mm (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5, e6⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) p q).trans ?_
  show _ = Cert.Spec.mm (V c main_arg0) (V c main_arg1) (((cfg0.win 2).blk t).view.emb (ix2 p q))
  unfold Cert.Spec.mm
  refine Finset.sum_congr rfl fun k _ => ?_
  -- the left operand's entry: row (block row) · 5000 + p, column k
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  -- the weight matrix's entry: row k, column q
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  refine congrArg₂ (· * ·) ?_ ?_
  · exact congrArg (V c main_arg0) hx
  · exact congrArg (V c main_arg1) hw

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The ten row blocks cover the array: row r is in the block of the point whose row block is r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after its last write-back, as one function of its input arrays at entry. -/
theorem final (c : Dev nD) : (dat0 V c).arrAt 2 cfg0.N = Cert.Spec.mm (V c main_arg0) (V c main_arg1) :=
  (dat0 V c).arrAt_eq_of_cover 2 _ (fun t _ => flushed_eq V c t) cover

end Cert.KernelIdeal.RegMatmulA

end
-- ==== Proof.RegMatmulB.lean ====
/-
  Region 3 (the second layer's linear map): ten blocks of 5000 rows, each the product of that block of rows with the whole weight matrix; together the whole product.
-/
import proofs.«130153_j27066883899917_1_alg».proof.Proof.Gen.KernelIdeal.Frame
import proofs.«130153_j27066883899917_1_alg».proof.Proof.Spec
import proofs.«130153_j27066883899917_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegMatmulB

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The zero offset vector, as the constant function. -/
theorem hz : (![0, 0] : Fin 2 → Nat) = fun _ => 0 := funext fun a => by fin_cases a <;> rfl

/-- The body's arithmetic read at one entry: the cast to the same shape and both roundings are the identity on extended
    reals, and the product into the zero accumulator at (p, q) is the sum over the contraction coordinate k of
    x0 (p, k) · x1 (k, q). -/
theorem pay_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [matmul, shapeCast_self]
  exact Cert.Lib.PlainMatmul.apply dot_S5000x128_S128x128_S5000x128_1_0_0_1_n_n rfl rfl rfl rfl rfl rfl none _ _ p q

/-- The index maps over the grid: the left operand's row block is the output's row block and its column block is 0; the
    weight matrix's block is (0, 0) at every point; the output's column block is 0 and its row block runs over 0 … 9. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ 0 ≤ win3_2.index t (0 : Fin 2) ∧ win3_2.index t (0 : Fin 2) ≤ 9 :=
  (by decide +kernel : ∀ t : Fin grid3.N, _)

/-- Every row block of the output is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the product of the two input arrays: entry (p, q) of the block is row
    (block row) · 5000 + p of x against column q of w, and it depends on row (block row) · 5000 + p of x and on
    column q of w only. -/
theorem flushed_eq (c : Dev nD) (t : Fin cfg3.N) :
    (dat3 V c).flushed 2 t = ((cfg3.win 2).blk t).view.read (Elt Ideal) (Cert.Spec.mm (V c main_v42) (V c main_arg3)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5, e6⟩ := idx_facts t
  funext j
  obtain ⟨p, q, rfl⟩ : ∃ (p : Fin 5000) (q : Fin 128), j = ix2 p q := ⟨j 0, j 1, eq_ix2 j⟩
  refine (pay_apply (iblk3 V c 0 t) (iblk3 V c 1 t) p q).trans ?_
  show _ = Cert.Spec.mm (V c main_v42) (V c main_arg3) (((cfg3.win 2).blk t).view.emb (ix2 p q))
  unfold Cert.Spec.mm
  refine Finset.sum_congr rfl fun k _ => ?_
  -- the left operand's entry: row (block row) · 5000 + p, column k
  have hx : ((cfg3.win 0).blk t).view.emb (ix2 p k) = ix2 ((((cfg3.win 2).blk t).view.emb (ix2 p q)) 0) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  -- the weight matrix's entry: row k, column q
  have hw : ((cfg3.win 1).blk t).view.emb (ix2 k q) = ix2 k ((((cfg3.win 2).blk t).view.emb (ix2 p q)) 1) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  refine congrArg₂ (· * ·) ?_ ?_
  · exact congrArg (V c main_v42) hx
  · exact congrArg (V c main_arg3) hw

/-- An index of the array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v43).slice (win3_2.rect t)).set ↔ _
  rw [View.set_slice_whole, Rect.mem_set_unit]
  exact Iff.rfl

/-- The ten row blocks cover the array: row r is in the block of the point whose row block is r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The region's output array after its last write-back, as one function of its input arrays at entry. -/
theorem final (c : Dev nD) : (dat3 V c).arrAt 2 cfg3.N = Cert.Spec.mm (V c main_v42) (V c main_arg3) :=
  (dat3 V c).arrAt_eq_of_cover 2 _ (fun t _ => flushed_eq V c t) cover

end Cert.KernelIdeal.RegMatmulB

end
-- ==== Proof.RegScaleA.lean ====
/-
  Region 1 (the first layer's edge weights): sixty blocks of 10000 edges, each row scaled by its edge's coefficient.
-/
import proofs.«130153_j27066883899917_1_alg».proof.Proof.Gen.KernelIdeal.Frame
import proofs.«130153_j27066883899917_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegScaleA

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The offset of a whole block: zero on both axes. -/
theorem hz : (![0, 0] : Fin 2 → Nat) = fun _ => 0 := funext fun a => by fin_cases a <;> rfl

/-- A [10000, 1] column broadcast to [10000, 128] reads, at (p, q), the column's entry of row p. -/
theorem bcast_col (x : Vec Ideal S10000x1 .f32) (p : Fin 10000) (q : Fin 128) :
    broadcastTo S10000x128 x broadcasts_S10000x1_S10000x128 (ix2 p q) = x (ix2 p (0 : Fin 1)) := by
  refine broadcastTo_apply x broadcasts_S10000x1_S10000x128 (ix2 p q) (ix2 p (0 : Fin 1)) fun a => ?_
  match a with
  | ⟨0, _⟩ =>
    show p.val = if (10000 : ℕ) = 1 then 0 else p.val
    exact (if_neg (by decide)).symm
  | ⟨1, _⟩ =>
    show (0 : ℕ) = if (1 : ℕ) = 1 then 0 else q.val
    exact (if_pos rfl).symm

/-- The body's arithmetic read at (p, q): the block of h at (p, q) times the block of c at (p, 0). -/
theorem pay_apply (x0 : Vec Ideal S10000x128 .f32) (x1 : Vec Ideal S10000x1 .f32) (p : Fin 10000) (q : Fin 128) :
    k1_pay1 (F := Ideal) x0 x1 (ix2 p q) = x0 (ix2 p q) * x1 (ix2 p (0 : Fin 1)) := by
  unfold k1_pay1
  rw [shapeCast_self, shapeCast_self]
  refine (mulf_apply _ _ _).trans ?_
  rw [bcast_col]

/-- An entry of the scaled array from the entries of h and c it is made of. -/
theorem es_at (H : FVec Ideal ⟨2, ![600000, 128]⟩ .f32) (C : FVec Ideal ⟨2, ![600000, 1]⟩ .f32)
    (i0 i2 : (⟨2, ![600000, 128]⟩ : Shape).Idx) (i1 : (⟨2, ![600000, 1]⟩ : Shape).Idx)
    (h0 : i0 = i2) (h1 : i1 = ix2 (i2 0) (0 : Fin 1)) : H i0 * C i1 = Cert.Spec.es H C i2 := by
  subst h0 h1; rfl

/-- The printed index maps, decided over the grid: both input blocks follow the output's block along the rows,
    every block sits at column block 0, and the output's row block stays below 60. -/
theorem idx_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0
    ∧ win1_2.index t (0 : Fin 2) ≤ 59 :=
  (by decide +kernel : ∀ t : Fin grid1.N, _)

/-- Every row block of the output is some point's. -/
theorem idx_onto : ∀ q0 : Fin 60, ∃ t : Fin cfg1.N, win1_2.index t = ![q0.val, 0] :=
  (by decide +kernel : ∀ q0 : Fin 60, ∃ t : Fin grid1.N, win1_2.index t = ![q0.val, 0])

/-- What point t writes back is block t of the scaled array. -/
theorem flushed_eq (c : Dev nD) (t : Fin cfg1.N) :
    (dat1 V c).flushed 2 t = ((cfg1.win 2).blk t).view.read (Elt Ideal) (Cert.Spec.es (V c main_v34) (V c main_v35)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_apply (iblk1 V c 0 t) (iblk1 V c 1 t) p q).trans ?_
  -- the block of h at (p, q) is h where the output's block has (p, q)
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  -- the block of c at (p, 0) is c at the output entry's row, column 0
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  exact es_at (V c main_v34) (V c main_v35) (((cfg1.win 0).blk t).view.emb (ix2 p q)) (((cfg1.win 2).blk t).view.emb (ix2 p q))
    (((cfg1.win 1).blk t).view.emb (ix2 p (0 : Fin 1))) h0 h1

/-- An index of the array is in point t's block iff each coordinate is in the block's range on its axis. -/
theorem mem_blk (t : Fin cfg1.N) (i : S600000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v36).slice (win1_2.rect t)).set ↔ _
  rw [View.set_slice_whole, Rect.mem_set_unit]
  exact Iff.rfl

/-- The sixty blocks fill the array: row r is in the block of the point whose row block is r / 10000. -/
theorem cover (i : S600000x128.Idx) : ∃ t : Fin cfg1.N, (cfg1.win 2).flush t = true ∧ i ∈ ((cfg1.win 2).blk t).view.set := by
  have hi0 : (i 0).val < 600000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The region's output array after its last write-back, as one function of its input arrays at entry. -/
theorem final (c : Dev nD) : (dat1 V c).arrAt 2 cfg1.N = Cert.Spec.es (V c main_v34) (V c main_v35) := by
  exact (dat1 V c).arrAt_eq_of_cover 2 _ (fun t _ => flushed_eq V c t) cover

end Cert.KernelIdeal.RegScaleA

end
-- ==== Proof.RegScaleB.lean ====
/-
  Region 4 (the second layer's edge weights): sixty blocks of 10000 edges, each row scaled by its edge's coefficient.
-/
import proofs.«130153_j27066883899917_1_alg».proof.Proof.Gen.KernelIdeal.Frame
import proofs.«130153_j27066883899917_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegScaleB

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The offset of a whole block: zero on both axes. -/
theorem hz : (![0, 0] : Fin 2 → Nat) = fun _ => 0 := funext fun a => by fin_cases a <;> rfl

/-- A [10000, 1] column broadcast to [10000, 128] reads, at (p, q), the column's entry of row p. -/
theorem bcast_col (x : Vec Ideal S10000x1 .f32) (p : Fin 10000) (q : Fin 128) :
    broadcastTo S10000x128 x broadcasts_S10000x1_S10000x128 (ix2 p q) = x (ix2 p (0 : Fin 1)) := by
  refine broadcastTo_apply x broadcasts_S10000x1_S10000x128 (ix2 p q) (ix2 p (0 : Fin 1)) fun a => ?_
  match a with
  | ⟨0, _⟩ =>
    show p.val = if (10000 : ℕ) = 1 then 0 else p.val
    exact (if_neg (by decide)).symm
  | ⟨1, _⟩ =>
    show (0 : ℕ) = if (1 : ℕ) = 1 then 0 else q.val
    exact (if_pos rfl).symm

/-- The body's arithmetic read at (p, q): the block of h at (p, q) times the block of c at (p, 0). -/
theorem pay_apply (x0 : Vec Ideal S10000x128 .f32) (x1 : Vec Ideal S10000x1 .f32) (p : Fin 10000) (q : Fin 128) :
    k4_pay1 (F := Ideal) x0 x1 (ix2 p q) = x0 (ix2 p q) * x1 (ix2 p (0 : Fin 1)) := by
  unfold k4_pay1
  rw [shapeCast_self, shapeCast_self]
  refine (mulf_apply _ _ _).trans ?_
  rw [bcast_col]

/-- An entry of the scaled array from the entries of h and c it is made of. -/
theorem es_at (H : FVec Ideal ⟨2, ![600000, 128]⟩ .f32) (C : FVec Ideal ⟨2, ![600000, 1]⟩ .f32)
    (i0 i2 : (⟨2, ![600000, 128]⟩ : Shape).Idx) (i1 : (⟨2, ![600000, 1]⟩ : Shape).Idx)
    (h0 : i0 = i2) (h1 : i1 = ix2 (i2 0) (0 : Fin 1)) : H i0 * C i1 = Cert.Spec.es H C i2 := by
  subst h0 h1; rfl

/-- The printed index maps, decided over the grid: both input blocks follow the output's block along the rows,
    every block sits at column block 0, and the output's row block stays below 60. -/
theorem idx_facts : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (1 : Fin 2) = 0
    ∧ win4_2.index t (0 : Fin 2) ≤ 59 :=
  (by decide +kernel : ∀ t : Fin grid4.N, _)

/-- Every row block of the output is some point's. -/
theorem idx_onto : ∀ q0 : Fin 60, ∃ t : Fin cfg4.N, win4_2.index t = ![q0.val, 0] :=
  (by decide +kernel : ∀ q0 : Fin 60, ∃ t : Fin grid4.N, win4_2.index t = ![q0.val, 0])

/-- What point t writes back is block t of the scaled array. -/
theorem flushed_eq (c : Dev nD) (t : Fin cfg4.N) :
    (dat4 V c).flushed 2 t = ((cfg4.win 2).blk t).view.read (Elt Ideal) (Cert.Spec.es (V c main_v50) (V c main_v51)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_apply (iblk4 V c 0 t) (iblk4 V c 1 t) p q).trans ?_
  -- the block of h at (p, q) is h where the output's block has (p, q)
  have h0 : ((cfg4.win 0).blk t).view.emb (ix2 p q) = ((cfg4.win 2).blk t).view.emb (ix2 p q) := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * q.val = win4_2.index t (1 : Fin 2) * 128 + 1 * q.val; omega
  -- the block of c at (p, 0) is c at the output entry's row, column 0
  have h1 : ((cfg4.win 1).blk t).view.emb (ix2 p (0 : Fin 1)) = ix2 ((((cfg4.win 2).blk t).view.emb (ix2 p q)) 0) (0 : Fin 1) := by
    funext a; apply Fin.ext
    match a with
    | ⟨0, _⟩ => show win4_1.index t (0 : Fin 2) * 10000 + 1 * p.val = win4_2.index t (0 : Fin 2) * 10000 + 1 * p.val; omega
    | ⟨1, _⟩ => show win4_1.index t (1 : Fin 2) * 1 + 1 * 0 = 0; omega
  exact es_at (V c main_v50) (V c main_v51) (((cfg4.win 0).blk t).view.emb (ix2 p q)) (((cfg4.win 2).blk t).view.emb (ix2 p q))
    (((cfg4.win 1).blk t).view.emb (ix2 p (0 : Fin 1))) h0 h1

/-- An index of the array is in point t's block iff each coordinate is in the block's range on its axis. -/
theorem mem_blk (t : Fin cfg4.N) (i : S600000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v52).slice (win4_2.rect t)).set ↔ _
  rw [View.set_slice_whole, Rect.mem_set_unit]
  exact Iff.rfl

/-- The sixty blocks fill the array: row r is in the block of the point whose row block is r / 10000. -/
theorem cover (i : S600000x128.Idx) : ∃ t : Fin cfg4.N, (cfg4.win 2).flush t = true ∧ i ∈ ((cfg4.win 2).blk t).view.set := by
  have hi0 : (i 0).val < 600000 := (i 0).isLt
  have hi1 : (i 1).val < 128 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The region's output array after its last write-back, as one function of its input arrays at entry. -/
theorem final (c : Dev nD) : (dat4 V c).arrAt 2 cfg4.N = Cert.Spec.es (V c main_v50) (V c main_v51) := by
  exact (dat4 V c).arrAt_eq_of_cover 2 _ (fun t _ => flushed_eq V c t) cover

end Cert.KernelIdeal.RegScaleB

end
-- ==== Proof.RegFinA.lean ====
/-
  Region 2 (the first layer's closing step): ten blocks of 5000 nodes; aggregated row plus own row times the node's coefficient plus bias, then the leaky activation.
-/
import proofs.«130153_j27066883899917_1_alg».proof.Proof.Gen.KernelIdeal.Frame
import proofs.«130153_j27066883899917_1_alg».proof.Proof.Spec
import proofs.«130153_j27066883899917_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegFinA

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- A one-column matrix [R, 1] spread across C columns, at entry (p, q): the column's entry (p, 0). -/
theorem colSpread_apply {α : Type} {R C : Nat} (x : (⟨2, ![R, 1]⟩ : Shape).Idx → α)
    (h : (⟨2, ![R, 1]⟩ : Shape).Broadcasts ⟨2, ![R, C]⟩) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · have := p.isLt; omega
    · rfl
  | ⟨1, _⟩ => rfl

/-- The body's value at entry (p, q) of a block: the leaky activation of (s + h · c (p, 0)) + b (0, q). -/
theorem pay_apply (x0 x1 : Vec Ideal S5000x128 .f32) (x2 : Vec Ideal S5000x1 .f32) (x3 : Vec Ideal S1x128 .f32)
    (p : Fin 5000) (q : Fin 128) :
    k2_pay1 (F := Ideal) x0 x1 x2 x3 (ix2 p q)
      = Cert.Spec.leaky (x0 (ix2 p q) + x1 (ix2 p q) * x2 (ix2 p (0 : Fin 1)) + x3 (ix2 (0 : Fin 1) q)) := by
  unfold k2_pay1 Cert.Spec.leaky
  simp only [shapeCast_self, select_apply, cmpf_apply, mulf_apply, addf_apply, broadcast_apply]
  rw [colSpread_apply, Cert.Lib.PlainMatmul.rowSpread_apply]
  rfl

/-- The zero offsets on both axes, as the constant function. -/
theorem hz : (![0, 0] : Fin 2 → Nat) = fun _ => 0 := funext fun a => by fin_cases a <;> rfl

/-- The printed index maps, decided over the ten points. -/
theorem idx_facts : ∀ t : Fin cfg2.N,
      win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (1 : Fin 2) = 0
    ∧ 0 ≤ win2_4.index t (0 : Fin 2) ∧ win2_4.index t (0 : Fin 2) ≤ 9 :=
  (by decide +kernel : ∀ t : Fin grid2.N, _)

/-- Every one of the ten block rows is some point's output block. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- The layer's output at an array index E, from its four inputs read at indices that are E, E, (E's row, 0) and (0, E's column). -/
theorem fin_at (s h : FVec Ideal S50000x128 .f32) (cc : FVec Ideal S50000x1 .f32) (b : FVec Ideal S1x128 .f32)
    (i0 i1 E : S50000x128.Idx) (i2 : S50000x1.Idx) (i3 : S1x128.Idx)
    (h0 : i0 = E) (h1 : i1 = E) (h2 : i2 = ix2 (E 0) (0 : Fin 1)) (h3 : i3 = ix2 (0 : Fin 1) (E 1)) :
    Cert.Spec.leaky (s i0 + h i1 * cc i2 + b i3) = Cert.Spec.fin s h cc b E := by
  subst h0 h1 h2 h3; rfl

-- the TensorCore's buffer contents when the region is entered
variable (V : (c : Dev nD) → (b : Ref sig .tc) → Buf (Elt Ideal) ((c : Thread nD τ).loc b))

/-- What point t writes back is block t of the layer's output function of the arrays at entry. -/
theorem flushed_eq (c : Dev nD) (t : Fin cfg2.N) :
    (dat2 V c).flushed 4 t = ((cfg2.win 4).blk t).view.read (Elt Ideal)
      (Cert.Spec.fin (V c main_v39) (V c main_v27) (V c main_v40) (V c main_v41)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  refine (pay_apply (iblk2 V c 0 t) (iblk2 V c 1 t) (iblk2 V c 2 t) (iblk2 V c 3 t) p q).trans ?_
  obtain ⟨e00, e01, e10, e11, e20, e21, e30, e31, e41, lo, hi⟩ := idx_facts t
  have hp : p.val < 5000 := p.isLt
  have hq : q.val < 128 := q.isLt
  -- the two full-width inputs are read at the output entry's own array index
  have h0 : ((cfg2.win 0).blk t).view.emb (ix2 p q) = ((cfg2.win 4).blk t).view.emb (ix2 p q) := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * q.val = win2_4.index t (1 : Fin 2) * 128 + 1 * q.val; omega
  have h1 : ((cfg2.win 1).blk t).view.emb (ix2 p q) = ((cfg2.win 4).blk t).view.emb (ix2 p q) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 128 + 1 * q.val = win2_4.index t (1 : Fin 2) * 128 + 1 * q.val; omega
  -- the coefficient column at the entry's row, its one column
  have h2 : ((cfg2.win 2).blk t).view.emb (ix2 p (0 : Fin 1))
      = ix2 (((cfg2.win 4).blk t).view.emb (ix2 p q) 0) (0 : Fin 1) := by
    funext a; apply Fin.ext
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  -- the bias row at its one row, the entry's column
  have h3 : ((cfg2.win 3).blk t).view.emb (ix2 (0 : Fin 1) q)
      = ix2 (0 : Fin 1) (((cfg2.win 4).blk t).view.emb (ix2 p q) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  exact fin_at (V c main_v39) (V c main_v27) (V c main_v40) (V c main_v41)
    (((cfg2.win 0).blk t).view.emb (ix2 p q)) (((cfg2.win 1).blk t).view.emb (ix2 p q)) (((cfg2.win 4).blk t).view.emb (ix2 p q))
    (((cfg2.win 2).blk t).view.emb (ix2 p (0 : Fin 1))) (((cfg2.win 3).blk t).view.emb (ix2 (0 : Fin 1) q)) h0 h1 h2 h3

/-- An index of the array is in point t's block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v42).slice (win2_4.rect t)).set ↔ _
  rw [View.set_slice_whole, Rect.mem_set_unit]
  exact Iff.rfl

/-- Every index of the array is in some point's block: row r is in the block of point r / 5000. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The region's output array after its last write-back, as one function of its input arrays at entry. -/
theorem final (c : Dev nD) : (dat2 V c).arrAt 4 cfg2.N = Cert.Spec.fin (V c main_v39) (V c main_v27) (V c main_v40) (V c main_v41) := by
  exact (dat2 V c).arrAt_eq_of_cover 4 _ (fun t _ => flushed_eq V c t) cover

end Cert.KernelIdeal.RegFinA

end
-- ==== Proof.RegFinB.lean ====
/-
  Region 5 (the second layer's closing step): ten blocks of 5000 nodes; aggregated row plus own row times the node's coefficient plus bias, then the leaky activation.
-/
import proofs.«130153_j27066883899917_1_alg».proof.Proof.Gen.KernelIdeal.Frame
import proofs.«130153_j27066883899917_1_alg».proof.Proof.Spec
import proofs.«130153_j27066883899917_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegFinB

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- A one-column matrix [R, 1] spread across C columns, at entry (p, q): the column's entry (p, 0). -/
theorem colSpread_apply {α : Type} {R C : Nat} (x : (⟨2, ![R, 1]⟩ : Shape).Idx → α)
    (h : (⟨2, ![R, 1]⟩ : Shape).Broadcasts ⟨2, ![R, C]⟩) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · have := p.isLt; omega
    · rfl
  | ⟨1, _⟩ => rfl

/-- The body's value at entry (p, q) of a block: the leaky activation of (s + h · c (p, 0)) + b (0, q). -/
theorem pay_apply (x0 x1 : Vec Ideal S5000x128 .f32) (x2 : Vec Ideal S5000x1 .f32) (x3 : Vec Ideal S1x128 .f32)
    (p : Fin 5000) (q : Fin 128) :
    k5_pay1 (F := Ideal) x0 x1 x2 x3 (ix2 p q)
      = Cert.Spec.leaky (x0 (ix2 p q) + x1 (ix2 p q) * x2 (ix2 p (0 : Fin 1)) + x3 (ix2 (0 : Fin 1) q)) := by
  unfold k5_pay1 Cert.Spec.leaky
  simp only [shapeCast_self, select_apply, cmpf_apply, mulf_apply, addf_apply, broadcast_apply]
  rw [colSpread_apply, Cert.Lib.PlainMatmul.rowSpread_apply]
  rfl

/-- The zero offsets on both axes, as the constant function. -/
theorem hz : (![0, 0] : Fin 2 → Nat) = fun _ => 0 := funext fun a => by fin_cases a <;> rfl

/-- The printed index maps, decided over the ten points. -/
theorem idx_facts : ∀ t : Fin cfg5.N,
      win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0
    ∧ 0 ≤ win5_4.index t (0 : Fin 2) ∧ win5_4.index t (0 : Fin 2) ≤ 9 :=
  (by decide +kernel : ∀ t : Fin grid5.N, _)

/-- Every one of the ten block rows is some point's output block. -/
theorem idx_onto : ∀ q0 : Fin 10, ∃ t : Fin cfg5.N, win5_4.index t = ![q0.val, 0] :=
  (by decide +kernel : ∀ q0 : Fin 10, ∃ t : Fin grid5.N, win5_4.index t = ![q0.val, 0])

/-- The layer's output at an array index E, from its four inputs read at indices that are E, E, (E's row, 0) and (0, E's column). -/
theorem fin_at (s h : FVec Ideal S50000x128 .f32) (cc : FVec Ideal S50000x1 .f32) (b : FVec Ideal S1x128 .f32)
    (i0 i1 E : S50000x128.Idx) (i2 : S50000x1.Idx) (i3 : S1x128.Idx)
    (h0 : i0 = E) (h1 : i1 = E) (h2 : i2 = ix2 (E 0) (0 : Fin 1)) (h3 : i3 = ix2 (0 : Fin 1) (E 1)) :
    Cert.Spec.leaky (s i0 + h i1 * cc i2 + b i3) = Cert.Spec.fin s h cc b E := by
  subst h0 h1 h2 h3; rfl

-- the TensorCore's buffer contents when the region is entered
variable (V : (c : Dev nD) → (b : Ref sig .tc) → Buf (Elt Ideal) ((c : Thread nD τ).loc b))

/-- What point t writes back is block t of the layer's output function of the arrays at entry. -/
theorem flushed_eq (c : Dev nD) (t : Fin cfg5.N) :
    (dat5 V c).flushed 4 t = ((cfg5.win 4).blk t).view.read (Elt Ideal)
      (Cert.Spec.fin (V c main_v55) (V c main_v43) (V c main_v56) (V c main_v57)) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  refine (pay_apply (iblk5 V c 0 t) (iblk5 V c 1 t) (iblk5 V c 2 t) (iblk5 V c 3 t) p q).trans ?_
  obtain ⟨e00, e01, e10, e11, e20, e21, e30, e31, e41, lo, hi⟩ := idx_facts t
  have hp : p.val < 5000 := p.isLt
  have hq : q.val < 128 := q.isLt
  -- the two full-width inputs are read at the output entry's own array index
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * q.val = win5_4.index t (1 : Fin 2) * 128 + 1 * q.val; omega
  -- the coefficient column at the entry's row, its one column
  have h2 : ((cfg5.win 2).blk t).view.emb (ix2 p (0 : Fin 1))
      = ix2 (((cfg5.win 4).blk t).view.emb (ix2 p q) 0) (0 : Fin 1) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  -- the bias row at its one row, the entry's column
  have h3 : ((cfg5.win 3).blk t).view.emb (ix2 (0 : Fin 1) q)
      = ix2 (0 : Fin 1) (((cfg5.win 4).blk t).view.emb (ix2 p q) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega
  exact fin_at (V c main_v55) (V c main_v43) (V c main_v56) (V c main_v57)
    (((cfg5.win 0).blk t).view.emb (ix2 p q)) (((cfg5.win 1).blk t).view.emb (ix2 p q)) (((cfg5.win 4).blk t).view.emb (ix2 p q))
    (((cfg5.win 2).blk t).view.emb (ix2 p (0 : Fin 1))) (((cfg5.win 3).blk t).view.emb (ix2 (0 : Fin 1) q)) h0 h1 h2 h3

/-- An index of the array is in point t's block iff each coordinate is in the block's range on its axis. -/
theorem mem_blk (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v58).slice (win5_4.rect t)).set ↔ _
  rw [View.set_slice_whole, Rect.mem_set_unit]
  exact Iff.rfl

/-- Every index of the array is in some point's block: row r is in the block of point r / 5000. -/
theorem cover (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := idx_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The region's output array after its last write-back, as one function of its input arrays at entry. -/
theorem final (c : Dev nD) : (dat5 V c).arrAt 4 cfg5.N = Cert.Spec.fin (V c main_v55) (V c main_v43) (V c main_v56) (V c main_v57) := by
  exact (dat5 V c).arrAt_eq_of_cover 4 _ (fun t _ => flushed_eq V c t) cover

end Cert.KernelIdeal.RegFinB

end
-- ==== Proof.Bridge.lean ====
/-
  The reference's stages, in the vocabulary of the kernel's three region functions (Spec.lean), at the ideal values.

  * The host's dot_general of a [50000, 128] by a [128, 128] matrix is the product `mm`: both are the sum over the
    contraction coordinate, entry by entry.
  * A row of a [600000, 128] array times the doubly broadcast coefficient vector is `es` of the coefficient reshaped to a
    column: a reshape of a vector to a one-column matrix and its broadcast along a new unit axis read the same entry.
  * The reference's closing step of a layer (aggregate + own row × broadcast coefficient + broadcast bias, then the
    comparison with zero and the select) is `fin` of the coefficient reshaped to a column and the bias reshaped to a row.
  The reference computes the degree normalisation once per layer; the two computations are the same term, so the second
  layer's stages are the first layer's functions at other arguments.
-/
import proofs.«130153_j27066883899917_1_alg».proof.Proof.Gen.ReferenceIdeal.Read
import proofs.«130153_j27066883899917_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Bridge

open Cert.ReferenceIdeal Cert.ReferenceIdeal.Gen Cert.ReferenceIdeal.Read
open Idealize.ShloMosaic Idealize.ShloMosaic.TcCoe Idealize.SL.Sem Idealize.ShloMosaic.ValueIdx

/-- A coefficient vector over the edges, broadcast to a column and then along the 128 features. -/
def coefWide (cf : FVec Ideal S600000 .f32) : FVec Ideal S600000x128 .f32 :=
  broadcastInDim S600000x128 ![0, 1] bcast_S600000x1_S600000x128_0_1 (broadcastInDim S600000x1 ![0] bcast_S600000_S600000x1_0 cf)

/-- The reference's closing step of a layer on arbitrary arrays: `v = (s + h · wide d) + wide b`, then `v` where `v > 0` and
    `0.01 · v` elsewhere. -/
def layerTail (s h : FVec Ideal S50000x128 .f32) (d : FVec Ideal S50000 .f32) (b : FVec Ideal S128 .f32) : FVec Ideal S50000x128 .f32 :=
  select
    (cmpf .ogt
      (addf (addf s (mulf h (broadcastInDim S50000x128 ![0, 1] bcast_S50000x1_S50000x128_0_1 (broadcastInDim S50000x1 ![0] bcast_S50000_S50000x1_0 d))))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)))
    (addf (addf s (mulf h (broadcastInDim S50000x128 ![0, 1] bcast_S50000x1_S50000x128_0_1 (broadcastInDim S50000x1 ![0] bcast_S50000_S50000x1_0 d))))
      (broadcastInDim S50000x128 ![0, 1] bcast_S1x128_S50000x128_0_1 (broadcastInDim S1x128 ![1] bcast_S128_S1x128_1 b)))
    (mulf (broadcastInDim S50000x128 ![] bcast_S_S50000x128 (constant (F := Ideal) S_ .f32 0x3C23D70A#32))
      (addf (addf s (mulf h (broadcastInDim S50000x128 ![0, 1] bcast_S50000x1_S50000x128_0_1 (broadcastInDim S50000x1 ![0] bcast_S50000_S50000x1_0 d))))
        (broadcastInDim S50000x128 ![0, 1] bcast_S1x128_S50000x128_0_1 (broadcastInDim S1x128 ![1] bcast_S128_S1x128_1 b))))

/-! ## The stages as those functions (the definitions unfolded; the second layer's normalisation is the first's term) -/

theorem v36_eq (x0 : FVec Ideal S50000x128 .f32) (x1 : FVec Ideal S128x128 .f32) (x5 : IVec S2x600000 32) :
    val_main_v36 (F := Ideal) x0 x1 x5 = mulf (val_main_v33 (F := Ideal) x0 x1 x5) (coefWide (val_main_v26 (F := Ideal) x5)) := rfl

theorem v52_eq (x0 : FVec Ideal S50000x128 .f32) (x1 : FVec Ideal S128x128 .f32) (x2 : FVec Ideal S128 .f32) (x5 : IVec S2x600000 32) :
    val_main_v52 (F := Ideal) x0 x1 x2 x5
      = layerTail (val_main_v39 (F := Ideal) x0 x1 x5) (val_main_v4 (F := Ideal) x0 x1) (val_main_v40 (F := Ideal) x5) x2 := rfl

theorem v53_eq (x0 : FVec Ideal S50000x128 .f32) (x1 : FVec Ideal S128x128 .f32) (x2 : FVec Ideal S128 .f32) (x3 : FVec Ideal S128x128 .f32)
    (x5 : IVec S2x600000 32) :
    val_main_v53 (F := Ideal) x0 x1 x2 x3 x5 = val_main_v4 (F := Ideal) (val_main_v52 (F := Ideal) x0 x1 x2 x5) x3 := rfl

theorem v85_eq (x0 : FVec Ideal S50000x128 .f32) (x1 : FVec Ideal S128x128 .f32) (x2 : FVec Ideal S128 .f32) (x3 : FVec Ideal S128x128 .f32)
    (x5 : IVec S2x600000 32) :
    val_main_v85 (F := Ideal) x0 x1 x2 x3 x5 = mulf (val_main_v82 (F := Ideal) x0 x1 x2 x3 x5) (coefWide (val_main_v26 (F := Ideal) x5)) := rfl

theorem v101_eq (x0 : FVec Ideal S50000x128 .f32) (x1 : FVec Ideal S128x128 .f32) (x2 : FVec Ideal S128 .f32) (x3 : FVec Ideal S128x128 .f32)
    (x4 : FVec Ideal S128 .f32) (x5 : IVec S2x600000 32) :
    val_main_v101 (F := Ideal) x0 x1 x2 x3 x4 x5
      = layerTail (val_main_v88 (F := Ideal) x0 x1 x2 x3 x5) (val_main_v53 (F := Ideal) x0 x1 x2 x3 x5) (val_main_v40 (F := Ideal) x5) x4 := rfl

/-! ## The three region functions against the reference's vocabulary -/

/-- The product, entry by entry, is the host's dot_general. -/
theorem mm_eq (x : FVec Ideal S50000x128 .f32) (w : FVec Ideal S128x128 .f32) :
    Cert.Spec.mm x w = val_main_v4 (F := Ideal) x w := by
  funext j
  rw [val_main_v4_apply]
  unfold Cert.Spec.mm
  refine Finset.sum_congr rfl fun k _ => ?_
  have el : lidx_main_v4 j k = ix2 (j 0) k :=
    funext fun a => Fin.ext (by match a with | ⟨0, _⟩ => rfl | ⟨1, _⟩ => rfl)
  have er : ridx_main_v4 j k = ix2 k (j 1) :=
    funext fun a => Fin.ext (by match a with | ⟨0, _⟩ => rfl | ⟨1, _⟩ => rfl)
  rw [el, er]
  rfl

/-- A vector over the edges reshaped to a column, read at row `p`, is the vector's entry `p`. -/
theorem colRead600000 (v : FVec Ideal S600000 .f32) (hc : S600000.ShapeCasts S600000x1) (p : Fin 600000) :
    shapeCast S600000x1 v hc (ix2 p (0 : Fin 1)) = v (ix1 p) :=
  shapeCast_apply v hc (ix2 p (0 : Fin 1)) (ix1 p)
    (by rewrite [Shape.rowMajor_val_two, Shape.rowMajor_val_one]; show p.val = p.val * 1 + 0; omega)

/-- The doubly broadcast coefficient read at `(p, q)` is the vector's entry `p`. -/
theorem coefWide_apply (v : FVec Ideal S600000 .f32) (p : Fin 600000) (q : Fin 128) :
    coefWide v (ix2 p q) = v (ix1 p) := by
  unfold coefWide
  have inner : ∀ (i : S600000x1.Idx), broadcastInDim S600000x1 ![0] bcast_S600000_S600000x1_0 v i = v (ix1 (i 0)) := fun i =>
    broadcastInDim_apply _ bcast_S600000_S600000x1_0 v i (ix1 (i 0)) (fun a => match a with
      | ⟨0, _⟩ => by show (i 0).val = if (600000 : Nat) = 1 then 0 else (i 0).val; rw [if_neg (by decide)])
  generalize broadcastInDim S600000x1 ![0] bcast_S600000_S600000x1_0 v = y at inner
  refine (broadcastInDim_apply _ bcast_S600000x1_S600000x128_0_1 y (ix2 p q) (ix2 p (0 : Fin 1)) (fun a => match a with
    | ⟨0, _⟩ => by show p.val = if (600000 : Nat) = 1 then 0 else p.val; rw [if_neg (by decide)]
    | ⟨1, _⟩ => by show 0 = if (1 : Nat) = 1 then 0 else q.val; rw [if_pos rfl])).trans ?_
  exact inner _

/-- Rows scaled by the coefficient reshaped to a column are the rows times the doubly broadcast coefficient. -/
theorem es_eq (h : FVec Ideal S600000x128 .f32) (cf : FVec Ideal S600000 .f32) (hc : S600000.ShapeCasts S600000x1) :
    Cert.Spec.es h (shapeCast S600000x1 cf hc) = mulf h (coefWide cf) := by
  funext j
  obtain ⟨p, q, rfl⟩ : ∃ (p : Fin 600000) (q : Fin 128), j = ix2 p q := ⟨j 0, j 1, eq_ix2 j⟩
  show h (ix2 p q) * shapeCast S600000x1 cf hc (ix2 p (0 : Fin 1)) = h (ix2 p q) * coefWide cf (ix2 p q)
  rw [colRead600000, coefWide_apply]

/-- A vector over the nodes reshaped to a column, read at row `p`, is the vector's entry `p`. -/
theorem colRead50000 (v : FVec Ideal S50000 .f32) (hd : S50000.ShapeCasts S50000x1) (p : Fin 50000) :
    shapeCast S50000x1 v hd (ix2 p (0 : Fin 1)) = v (ix1 p) :=
  shapeCast_apply v hd (ix2 p (0 : Fin 1)) (ix1 p)
    (by rewrite [Shape.rowMajor_val_two, Shape.rowMajor_val_one]; show p.val = p.val * 1 + 0; omega)

/-- A vector over the features reshaped to a row, read at column `q`, is the vector's entry `q`. -/
theorem rowRead128 (v : FVec Ideal S128 .f32) (hb : S128.ShapeCasts S1x128) (q : Fin 128) :
    shapeCast S1x128 v hb (ix2 (0 : Fin 1) q) = v (ix1 q) :=
  shapeCast_apply v hb (ix2 (0 : Fin 1) q) (ix1 q)
    (by rewrite [Shape.rowMajor_val_two, Shape.rowMajor_val_one]; show q.val = 0 * 128 + q.val; omega)

/-- The node vector broadcast to a column and then along the features, read at `(p, q)`, is its entry `p`. -/
theorem colWide_apply (v : FVec Ideal S50000 .f32) (p : Fin 50000) (q : Fin 128) :
    broadcastInDim S50000x128 ![0, 1] bcast_S50000x1_S50000x128_0_1 (broadcastInDim S50000x1 ![0] bcast_S50000_S50000x1_0 v) (ix2 p q)
      = v (ix1 p) := by
  have inner : ∀ (i : S50000x1.Idx), broadcastInDim S50000x1 ![0] bcast_S50000_S50000x1_0 v i = v (ix1 (i 0)) := fun i =>
    broadcastInDim_apply _ bcast_S50000_S50000x1_0 v i (ix1 (i 0)) (fun a => match a with
      | ⟨0, _⟩ => by show (i 0).val = if (50000 : Nat) = 1 then 0 else (i 0).val; rw [if_neg (by decide)])
  generalize broadcastInDim S50000x1 ![0] bcast_S50000_S50000x1_0 v = y at inner
  refine (broadcastInDim_apply _ bcast_S50000x1_S50000x128_0_1 y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  exact inner _

/-- The feature vector broadcast to a row and then along the nodes, read at `(p, q)`, is its entry `q`. -/
theorem rowWide_apply (v : FVec Ideal S128 .f32) (p : Fin 50000) (q : Fin 128) :
    broadcastInDim S50000x128 ![0, 1] bcast_S1x128_S50000x128_0_1 (broadcastInDim S1x128 ![1] bcast_S128_S1x128_1 v) (ix2 p q)
      = v (ix1 q) := by
  have inner : ∀ (i : S1x128.Idx), broadcastInDim S1x128 ![1] bcast_S128_S1x128_1 v i = v (ix1 (i 1)) := fun i =>
    broadcastInDim_apply _ bcast_S128_S1x128_1 v i (ix1 (i 1)) (fun a => match a with
      | ⟨0, _⟩ => by show (i 1).val = if (128 : Nat) = 1 then 0 else (i 1).val; rw [if_neg (by decide)])
  generalize broadcastInDim S1x128 ![1] bcast_S128_S1x128_1 v = y at inner
  refine (broadcastInDim_apply _ bcast_S1x128_S50000x128_0_1 y (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact inner _

/-- A scalar constant broadcast over the whole array reads, at every index, as the constant's value. -/
theorem constWide_apply (c : BitVec FTy.f32.bits) (j : S50000x128.Idx) :
    broadcastInDim S50000x128 ![] bcast_S_S50000x128 (constant (F := Ideal) S_ .f32 c) j = Ideal.ofBits .f32 c :=
  (broadcastInDim_apply _ bcast_S_S50000x128 (constant (F := Ideal) S_ .f32 c) j (fun a => a.elim0) (fun a => a.elim0)).trans rfl

/-- The layer's closing step with the coefficient reshaped to a column and the bias reshaped to a row is the reference's. -/
theorem fin_eq (s h : FVec Ideal S50000x128 .f32) (d : FVec Ideal S50000 .f32) (b : FVec Ideal S128 .f32)
    (hd : S50000.ShapeCasts S50000x1) (hb : S128.ShapeCasts S1x128) :
    Cert.Spec.fin s h (shapeCast S50000x1 d hd) (shapeCast S1x128 b hb) = layerTail s h d b := by
  funext j
  obtain ⟨p, q, rfl⟩ : ∃ (p : Fin 50000) (q : Fin 128), j = ix2 p q := ⟨j 0, j 1, eq_ix2 j⟩
  unfold layerTail
  simp only [select_apply, cmpf_apply, mulf_apply, addf_apply]
  unfold Cert.Spec.fin Cert.Spec.leaky Cert.Spec.pre
  show Scalar.select (FloatOps.cmpf .ogt
        (s (ix2 p q) + h (ix2 p q) * shapeCast S50000x1 d hd (ix2 p (0 : Fin 1)) + shapeCast S1x128 b hb (ix2 (0 : Fin 1) q))
        (Ideal.ofBits .f32 0x00000000#32))
      (s (ix2 p q) + h (ix2 p q) * shapeCast S50000x1 d hd (ix2 p (0 : Fin 1)) + shapeCast S1x128 b hb (ix2 (0 : Fin 1) q))
      (Ideal.ofBits .f32 0x3C23D70A#32 *
        (s (ix2 p q) + h (ix2 p q) * shapeCast S50000x1 d hd (ix2 p (0 : Fin 1)) + shapeCast S1x128 b hb (ix2 (0 : Fin 1) q))) = _
  rw [colRead50000, rowRead128]
  rw [colWide_apply d p q, rowWide_apply b p q, constWide_apply (0x00000000#32) (ix2 p q), constWide_apply (0x3C23D70A#32) (ix2 p q)]

end Cert.ReferenceIdeal.Bridge

end
-- ==== Proof.Walk.lean ====
/-
  The kernel program's result buffer, followed from the launch memory through the seven stretches of host operations and
  the six regions, is the reference's last stage at the same argument arrays.

  Between regions the program applies the reference's own host operations (the source and target node of every edge with
  negative indices wrapped, the in-degree by a scatter of ones, its inverse square root, the two gathered factors' product
  per edge, the product of the factor with itself per node; per layer the gather of the linear map's rows, the scatter of
  the scaled rows to the target nodes; at the end the sums per graph over the counts per graph). So at every boundary each
  buffer a later step reads holds a stage of the reference at the launch arguments: a stretch's new buffers by unfolding
  the stretch at the buffers it reads, a region's output by the region's whole-array function and that function's reading
  in the reference's vocabulary, and every other buffer what it held one boundary earlier.
-/
import proofs.«130153_j27066883899917_1_alg».proof.Proof.Gen.KernelIdeal.Frame
import proofs.«130153_j27066883899917_1_alg».proof.Proof.Gen.ReferenceIdeal.Read
import proofs.«130153_j27066883899917_1_alg».proof.Proof.RegMatmulA
import proofs.«130153_j27066883899917_1_alg».proof.Proof.RegMatmulB
import proofs.«130153_j27066883899917_1_alg».proof.Proof.RegScaleA
import proofs.«130153_j27066883899917_1_alg».proof.Proof.RegScaleB
import proofs.«130153_j27066883899917_1_alg».proof.Proof.RegFinA
import proofs.«130153_j27066883899917_1_alg».proof.Proof.RegFinB
import proofs.«130153_j27066883899917_1_alg».proof.Proof.Bridge
import proofs.«130153_j27066883899917_1_alg».proof.Proof.Spec
import Idealize.ShloMosaic.Lib.StableHlo.Run
import Idealize.ShloMosaic.PureOps.Ideal.Laws

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v4 val_main_v26 val_main_v33 val_main_v36 val_main_v39 val_main_v40
  val_main_v52 val_main_v53 val_main_v82 val_main_v85 val_main_v88 val_main_v101 val_main_v113)
open Cert.ReferenceIdeal.Bridge (mm_eq es_eq fin_eq v36_eq v52_eq v53_eq v85_eq v101_eq)

variable (m : (ℓ : Loc nD τ sig) → Buf (Elt Ideal) ℓ) (ρ : Dev nD → PrngReg) (c : Dev nD)

/-- A stretch of host operations read at one buffer: the fold over the stretch unfolded, each operation's result at its own
    buffer its function of what it reads and at any other buffer what was there. -/
local macro "stretch " ops:ident : tactic => `(tactic| (show StableHlo.after $ops _ _ = _; after_results_simp))

/-- The closing step's function respects equal arguments. -/
theorem fin_congr {s s' h h' : FVec Ideal ⟨2, ![50000, 128]⟩ .f32} {d d' : FVec Ideal ⟨2, ![50000, 1]⟩ .f32}
    {b b' : FVec Ideal ⟨2, ![1, 128]⟩ .f32} (hs : s = s') (hh : h = h') (hd : d = d') (hb : b = b') :
    Cert.Spec.fin s h d b = Cert.Spec.fin s' h' d' b' := by subst hs hh hd hb; rfl

/-! ## Stretch 0: the edge structure, from the launch memory -/

theorem W1_v1 : W1 m ρ c (Proc.devRef .tc main_v1) = val_main_v1 (F := Ideal) (m ((c : Thread nD τ).loc main_arg5)) := by
  stretch hostOps0 <;> rfl
theorem W1_v3 : W1 m ρ c (Proc.devRef .tc main_v3) = val_main_v3 (F := Ideal) (m ((c : Thread nD τ).loc main_arg5)) := by
  stretch hostOps0 <;> rfl
/-- The per-edge coefficient: the inverse square root of the degree at the edge's source times that at its target. -/
theorem W1_v25 : W1 m ρ c (Proc.devRef .tc main_v25) = val_main_v26 (F := Ideal) (m ((c : Thread nD τ).loc main_arg5)) := by
  stretch hostOps0 <;> rfl
/-- The per-node coefficient: the inverse square root of the degree, squared. -/
theorem W1_v26 : W1 m ρ c (Proc.devRef .tc main_v26) = val_main_v40 (F := Ideal) (m ((c : Thread nD τ).loc main_arg5)) := by
  stretch hostOps0 <;> rfl
theorem W1_arg0 : W1 m ρ c (Proc.devRef .tc main_arg0) = m ((c : Thread nD τ).loc main_arg0) := by stretch hostOps0 <;> rfl
theorem W1_arg1 : W1 m ρ c (Proc.devRef .tc main_arg1) = m ((c : Thread nD τ).loc main_arg1) := by stretch hostOps0 <;> rfl
theorem W1_arg2 : W1 m ρ c (Proc.devRef .tc main_arg2) = m ((c : Thread nD τ).loc main_arg2) := by stretch hostOps0 <;> rfl
theorem W1_arg3 : W1 m ρ c (Proc.devRef .tc main_arg3) = m ((c : Thread nD τ).loc main_arg3) := by stretch hostOps0 <;> rfl
theorem W1_arg4 : W1 m ρ c (Proc.devRef .tc main_arg4) = m ((c : Thread nD τ).loc main_arg4) := by stretch hostOps0 <;> rfl
theorem W1_arg6 : W1 m ρ c (Proc.devRef .tc main_arg6) = m ((c : Thread nD τ).loc main_arg6) := by stretch hostOps0 <;> rfl

/-! ## Region 0: the first layer's linear map -/

theorem W2_v27 : W2 m ρ c (Proc.devRef .tc main_v27)
    = val_main_v4 (F := Ideal) (m ((c : Thread nD τ).loc main_arg0)) (m ((c : Thread nD τ).loc main_arg1)) :=
  (W2_arr m ρ c 2).trans ((RegMatmulA.final (V1 m ρ) c).trans
    ((congrArg₂ Cert.Spec.mm (W1_arg0 m ρ c) (W1_arg1 m ρ c)).trans (mm_eq _ _)))
theorem W2_v1 : W2 m ρ c (Proc.devRef .tc main_v1) = val_main_v1 (F := Ideal) (m ((c : Thread nD τ).loc main_arg5)) :=
  (W2_of_ne m ρ c main_v1 (by decide)).trans (W1_v1 m ρ c)
theorem W2_v3 : W2 m ρ c (Proc.devRef .tc main_v3) = val_main_v3 (F := Ideal) (m ((c : Thread nD τ).loc main_arg5)) :=
  (W2_of_ne m ρ c main_v3 (by decide)).trans (W1_v3 m ρ c)
theorem W2_v25 : W2 m ρ c (Proc.devRef .tc main_v25) = val_main_v26 (F := Ideal) (m ((c : Thread nD τ).loc main_arg5)) :=
  (W2_of_ne m ρ c main_v25 (by decide)).trans (W1_v25 m ρ c)
theorem W2_v26 : W2 m ρ c (Proc.devRef .tc main_v26) = val_main_v40 (F := Ideal) (m ((c : Thread nD τ).loc main_arg5)) :=
  (W2_of_ne m ρ c main_v26 (by decide)).trans (W1_v26 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg6 : W2 m ρ c (Proc.devRef .tc main_arg6) = m ((c : Thread nD τ).loc main_arg6) :=
  (W2_of_ne m ρ c main_arg6 (by decide)).trans (W1_arg6 m ρ c)

/-! ## Stretch 1: the linear map's rows gathered at the edges' sources; the coefficient as a column -/

theorem W3_v34 : W3 m ρ c (Proc.devRef .tc main_v34)
    = val_main_v33 (F := Ideal) (m ((c : Thread nD τ).loc main_arg0)) (m ((c : Thread nD τ).loc main_arg1)) (m ((c : Thread nD τ).loc main_arg5)) := by
  stretch hostOps1
  rw [W2_v27 m ρ c, W2_v1 m ρ c]
  rfl
theorem W3_v35 : W3 m ρ c (Proc.devRef .tc main_v35)
    = shapeCast S600000x1 (val_main_v26 (F := Ideal) (m ((c : Thread nD τ).loc main_arg5))) shapeCasts_S600000_S600000x1 := by
  stretch hostOps1
  rw [W2_v25 m ρ c]
  rfl
theorem W3_v27 : W3 m ρ c (Proc.devRef .tc main_v27)
    = val_main_v4 (F := Ideal) (m ((c : Thread nD τ).loc main_arg0)) (m ((c : Thread nD τ).loc main_arg1)) := by
  stretch hostOps1; exact W2_v27 m ρ c
theorem W3_v1 : W3 m ρ c (Proc.devRef .tc main_v1) = val_main_v1 (F := Ideal) (m ((c : Thread nD τ).loc main_arg5)) := by
  stretch hostOps1; exact W2_v1 m ρ c
theorem W3_v3 : W3 m ρ c (Proc.devRef .tc main_v3) = val_main_v3 (F := Ideal) (m ((c : Thread nD τ).loc main_arg5)) := by
  stretch hostOps1; exact W2_v3 m ρ c
theorem W3_v25 : W3 m ρ c (Proc.devRef .tc main_v25) = val_main_v26 (F := Ideal) (m ((c : Thread nD τ).loc main_arg5)) := by
  stretch hostOps1; exact W2_v25 m ρ c
theorem W3_v26 : W3 m ρ c (Proc.devRef .tc main_v26) = val_main_v40 (F := Ideal) (m ((c : Thread nD τ).loc main_arg5)) := by
  stretch hostOps1; exact W2_v26 m ρ c
theorem W3_arg2 : W3 m ρ c (Proc.devRef .tc main_arg2) = m ((c : Thread nD τ).loc main_arg2) := by stretch hostOps1; exact W2_arg2 m ρ c
theorem W3_arg3 : W3 m ρ c (Proc.devRef .tc main_arg3) = m ((c : Thread nD τ).loc main_arg3) := by stretch hostOps1; exact W2_arg3 m ρ c
theorem W3_arg4 : W3 m ρ c (Proc.devRef .tc main_arg4) = m ((c : Thread nD τ).loc main_arg4) := by stretch hostOps1; exact W2_arg4 m ρ c
theorem W3_arg6 : W3 m ρ c (Proc.devRef .tc main_arg6) = m ((c : Thread nD τ).loc main_arg6) := by stretch hostOps1; exact W2_arg6 m ρ c

/-! ## Region 1: the gathered rows scaled by the edges' coefficients -/

theorem W4_v36 : W4 m ρ c (Proc.devRef .tc main_v36)
    = val_main_v36 (F := Ideal) (m ((c : Thread nD τ).loc main_arg0)) (m ((c : Thread nD τ).loc main_arg1)) (m ((c : Thread nD τ).loc main_arg5)) :=
  (W4_arr m ρ c 2).trans ((RegScaleA.final (V3 m ρ) c).trans
    ((congrArg₂ Cert.Spec.es (W3_v34 m ρ c) (W3_v35 m ρ c)).trans ((es_eq _ _ _).trans (v36_eq _ _ _).symm)))
theorem W4_v27 : W4 m ρ c (Proc.devRef .tc main_v27)
    = val_main_v4 (F := Ideal) (m ((c : Thread nD τ).loc main_arg0)) (m ((c : Thread nD τ).loc main_arg1)) :=
  (W4_of_ne m ρ c main_v27 (by decide)).trans (W3_v27 m ρ c)
theorem W4_v1 : W4 m ρ c (Proc.devRef .tc main_v1) = val_main_v1 (F := Ideal) (m ((c : Thread nD τ).loc main_arg5)) :=
  (W4_of_ne m ρ c main_v1 (by decide)).trans (W3_v1 m ρ c)
theorem W4_v3 : W4 m ρ c (Proc.devRef .tc main_v3) = val_main_v3 (F := Ideal) (m ((c : Thread nD τ).loc main_arg5)) :=
  (W4_of_ne m ρ c main_v3 (by decide)).trans (W3_v3 m ρ c)
theorem W4_v25 : W4 m ρ c (Proc.devRef .tc main_v25) = val_main_v26 (F := Ideal) (m ((c : Thread nD τ).loc main_arg5)) :=
  (W4_of_ne m ρ c main_v25 (by decide)).trans (W3_v25 m ρ c)
theorem W4_v26 : W4 m ρ c (Proc.devRef .tc main_v26) = val_main_v40 (F := Ideal) (m ((c : Thread nD τ).loc main_arg5)) :=
  (W4_of_ne m ρ c main_v26 (by decide)).trans (W3_v26 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg6 : W4 m ρ c (Proc.devRef .tc main_arg6) = m ((c : Thread nD τ).loc main_arg6) :=
  (W4_of_ne m ρ c main_arg6 (by decide)).trans (W3_arg6 m ρ c)

/-! ## Stretch 2: the scaled rows summed at the edges' targets; the node coefficient as a column, the bias as a row -/

theorem W5_v39 : W5 m ρ c (Proc.devRef .tc main_v39)
    = val_main_v39 (F := Ideal) (m ((c : Thread nD τ).loc main_arg0)) (m ((c : Thread nD τ).loc main_arg1)) (m ((c : Thread nD τ).loc main_arg5)) := by
  stretch hostOps2
  rw [W4_v36 m ρ c, W4_v3 m ρ c]
  rfl
theorem W5_v40 : W5 m ρ c (Proc.devRef .tc main_v40)
    = shapeCast S50000x1 (val_main_v40 (F := Ideal) (m ((c : Thread nD τ).loc main_arg5))) shapeCasts_S50000_S50000x1 := by
  stretch hostOps2
  rw [W4_v26 m ρ c]
  rfl
theorem W5_v41 : W5 m ρ c (Proc.devRef .tc main_v41) = shapeCast S1x128 (m ((c : Thread nD τ).loc main_arg2)) shapeCasts_S128_S1x128 := by
  stretch hostOps2
  rw [W4_arg2 m ρ c]
  rfl
theorem W5_v27 : W5 m ρ c (Proc.devRef .tc main_v27)
    = val_main_v4 (F := Ideal) (m ((c : Thread nD τ).loc main_arg0)) (m ((c : Thread nD τ).loc main_arg1)) := by
  stretch hostOps2; exact W4_v27 m ρ c
theorem W5_v1 : W5 m ρ c (Proc.devRef .tc main_v1) = val_main_v1 (F := Ideal) (m ((c : Thread nD τ).loc main_arg5)) := by
  stretch hostOps2; exact W4_v1 m ρ c
theorem W5_v3 : W5 m ρ c (Proc.devRef .tc main_v3) = val_main_v3 (F := Ideal) (m ((c : Thread nD τ).loc main_arg5)) := by
  stretch hostOps2; exact W4_v3 m ρ c
theorem W5_v25 : W5 m ρ c (Proc.devRef .tc main_v25) = val_main_v26 (F := Ideal) (m ((c : Thread nD τ).loc main_arg5)) := by
  stretch hostOps2; exact W4_v25 m ρ c
theorem W5_v26 : W5 m ρ c (Proc.devRef .tc main_v26) = val_main_v40 (F := Ideal) (m ((c : Thread nD τ).loc main_arg5)) := by
  stretch hostOps2; exact W4_v26 m ρ c
theorem W5_arg3 : W5 m ρ c (Proc.devRef .tc main_arg3) = m ((c : Thread nD τ).loc main_arg3) := by stretch hostOps2; exact W4_arg3 m ρ c
theorem W5_arg4 : W5 m ρ c (Proc.devRef .tc main_arg4) = m ((c : Thread nD τ).loc main_arg4) := by stretch hostOps2; exact W4_arg4 m ρ c
theorem W5_arg6 : W5 m ρ c (Proc.devRef .tc main_arg6) = m ((c : Thread nD τ).loc main_arg6) := by stretch hostOps2; exact W4_arg6 m ρ c

/-! ## Region 2: the first layer's closing step -/

theorem W6_v42 : W6 m ρ c (Proc.devRef .tc main_v42)
    = val_main_v52 (F := Ideal) (m ((c : Thread nD τ).loc main_arg0)) (m ((c : Thread nD τ).loc main_arg1)) (m ((c : Thread nD τ).loc main_arg2))
        (m ((c : Thread nD τ).loc main_arg5)) :=
  (W6_arr m ρ c 4).trans ((RegFinA.final (V5 m ρ) c).trans
    ((fin_congr (W5_v39 m ρ c) (W5_v27 m ρ c) (W5_v40 m ρ c) (W5_v41 m ρ c)).trans ((fin_eq _ _ _ _ _ _).trans (v52_eq _ _ _ _).symm)))
theorem W6_v1 : W6 m ρ c (Proc.devRef .tc main_v1) = val_main_v1 (F := Ideal) (m ((c : Thread nD τ).loc main_arg5)) :=
  (W6_of_ne m ρ c main_v1 (by decide)).trans (W5_v1 m ρ c)
theorem W6_v3 : W6 m ρ c (Proc.devRef .tc main_v3) = val_main_v3 (F := Ideal) (m ((c : Thread nD τ).loc main_arg5)) :=
  (W6_of_ne m ρ c main_v3 (by decide)).trans (W5_v3 m ρ c)
theorem W6_v25 : W6 m ρ c (Proc.devRef .tc main_v25) = val_main_v26 (F := Ideal) (m ((c : Thread nD τ).loc main_arg5)) :=
  (W6_of_ne m ρ c main_v25 (by decide)).trans (W5_v25 m ρ c)
theorem W6_v26 : W6 m ρ c (Proc.devRef .tc main_v26) = val_main_v40 (F := Ideal) (m ((c : Thread nD τ).loc main_arg5)) :=
  (W6_of_ne m ρ c main_v26 (by decide)).trans (W5_v26 m ρ c)
theorem W6_arg3 : W6 m ρ c (Proc.devRef .tc main_arg3) = m ((c : Thread nD τ).loc main_arg3) :=
  (W6_of_ne m ρ c main_arg3 (by decide)).trans (W5_arg3 m ρ c)
theorem W6_arg4 : W6 m ρ c (Proc.devRef .tc main_arg4) = m ((c : Thread nD τ).loc main_arg4) :=
  (W6_of_ne m ρ c main_arg4 (by decide)).trans (W5_arg4 m ρ c)
theorem W6_arg6 : W6 m ρ c (Proc.devRef .tc main_arg6) = m ((c : Thread nD τ).loc main_arg6) :=
  (W6_of_ne m ρ c main_arg6 (by decide)).trans (W5_arg6 m ρ c)

/-! ## Region 3: the second layer's linear map, of the first layer's output -/

theorem W7_v43 : W7 m ρ c (Proc.devRef .tc main_v43)
    = val_main_v53 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) :=
  (W7_arr m ρ c 2).trans ((RegMatmulB.final (V6 m ρ) c).trans
    ((congrArg₂ Cert.Spec.mm (W6_v42 m ρ c) (W6_arg3 m ρ c)).trans ((mm_eq _ _).trans (v53_eq _ _ _ _ _).symm)))
theorem W7_v1 : W7 m ρ c (Proc.devRef .tc main_v1) = val_main_v1 (F := Ideal) (m ((c : Thread nD τ).loc main_arg5)) :=
  (W7_of_ne m ρ c main_v1 (by decide)).trans (W6_v1 m ρ c)
theorem W7_v3 : W7 m ρ c (Proc.devRef .tc main_v3) = val_main_v3 (F := Ideal) (m ((c : Thread nD τ).loc main_arg5)) :=
  (W7_of_ne m ρ c main_v3 (by decide)).trans (W6_v3 m ρ c)
theorem W7_v25 : W7 m ρ c (Proc.devRef .tc main_v25) = val_main_v26 (F := Ideal) (m ((c : Thread nD τ).loc main_arg5)) :=
  (W7_of_ne m ρ c main_v25 (by decide)).trans (W6_v25 m ρ c)
theorem W7_v26 : W7 m ρ c (Proc.devRef .tc main_v26) = val_main_v40 (F := Ideal) (m ((c : Thread nD τ).loc main_arg5)) :=
  (W7_of_ne m ρ c main_v26 (by decide)).trans (W6_v26 m ρ c)
theorem W7_arg4 : W7 m ρ c (Proc.devRef .tc main_arg4) = m ((c : Thread nD τ).loc main_arg4) :=
  (W7_of_ne m ρ c main_arg4 (by decide)).trans (W6_arg4 m ρ c)
theorem W7_arg6 : W7 m ρ c (Proc.devRef .tc main_arg6) = m ((c : Thread nD τ).loc main_arg6) :=
  (W7_of_ne m ρ c main_arg6 (by decide)).trans (W6_arg6 m ρ c)

/-! ## Stretch 4: the second linear map's rows gathered at the edges' sources; the coefficient as a column -/

theorem W8_v50 : W8 m ρ c (Proc.devRef .tc main_v50)
    = val_main_v82 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) := by
  stretch hostOps4
  rw [W7_v43 m ρ c, W7_v1 m ρ c]
  rfl
theorem W8_v51 : W8 m ρ c (Proc.devRef .tc main_v51)
    = shapeCast S600000x1 (val_main_v26 (F := Ideal) (m ((c : Thread nD τ).loc main_arg5))) shapeCasts_S600000_S600000x1 := by
  stretch hostOps4
  rw [W7_v25 m ρ c]
  rfl
theorem W8_v43 : W8 m ρ c (Proc.devRef .tc main_v43)
    = val_main_v53 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) := by
  stretch hostOps4; exact W7_v43 m ρ c
theorem W8_v3 : W8 m ρ c (Proc.devRef .tc main_v3) = val_main_v3 (F := Ideal) (m ((c : Thread nD τ).loc main_arg5)) := by
  stretch hostOps4; exact W7_v3 m ρ c
theorem W8_v26 : W8 m ρ c (Proc.devRef .tc main_v26) = val_main_v40 (F := Ideal) (m ((c : Thread nD τ).loc main_arg5)) := by
  stretch hostOps4; exact W7_v26 m ρ c
theorem W8_arg4 : W8 m ρ c (Proc.devRef .tc main_arg4) = m ((c : Thread nD τ).loc main_arg4) := by stretch hostOps4; exact W7_arg4 m ρ c
theorem W8_arg6 : W8 m ρ c (Proc.devRef .tc main_arg6) = m ((c : Thread nD τ).loc main_arg6) := by stretch hostOps4; exact W7_arg6 m ρ c

/-! ## Region 4: the gathered rows scaled by the edges' coefficients -/

theorem W9_v52 : W9 m ρ c (Proc.devRef .tc main_v52)
    = val_main_v85 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) :=
  (W9_arr m ρ c 2).trans ((RegScaleB.final (V8 m ρ) c).trans
    ((congrArg₂ Cert.Spec.es (W8_v50 m ρ c) (W8_v51 m ρ c)).trans ((es_eq _ _ _).trans (v85_eq _ _ _ _ _).symm)))
theorem W9_v43 : W9 m ρ c (Proc.devRef .tc main_v43)
    = val_main_v53 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) :=
  (W9_of_ne m ρ c main_v43 (by decide)).trans (W8_v43 m ρ c)
theorem W9_v3 : W9 m ρ c (Proc.devRef .tc main_v3) = val_main_v3 (F := Ideal) (m ((c : Thread nD τ).loc main_arg5)) :=
  (W9_of_ne m ρ c main_v3 (by decide)).trans (W8_v3 m ρ c)
theorem W9_v26 : W9 m ρ c (Proc.devRef .tc main_v26) = val_main_v40 (F := Ideal) (m ((c : Thread nD τ).loc main_arg5)) :=
  (W9_of_ne m ρ c main_v26 (by decide)).trans (W8_v26 m ρ c)
theorem W9_arg4 : W9 m ρ c (Proc.devRef .tc main_arg4) = m ((c : Thread nD τ).loc main_arg4) :=
  (W9_of_ne m ρ c main_arg4 (by decide)).trans (W8_arg4 m ρ c)
theorem W9_arg6 : W9 m ρ c (Proc.devRef .tc main_arg6) = m ((c : Thread nD τ).loc main_arg6) :=
  (W9_of_ne m ρ c main_arg6 (by decide)).trans (W8_arg6 m ρ c)

/-! ## Stretch 5: the scaled rows summed at the edges' targets; the node coefficient as a column, the bias as a row -/

theorem W10_v55 : W10 m ρ c (Proc.devRef .tc main_v55)
    = val_main_v88 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) := by
  stretch hostOps5
  rw [W9_v52 m ρ c, W9_v3 m ρ c]
  rfl
theorem W10_v56 : W10 m ρ c (Proc.devRef .tc main_v56)
    = shapeCast S50000x1 (val_main_v40 (F := Ideal) (m ((c : Thread nD τ).loc main_arg5))) shapeCasts_S50000_S50000x1 := by
  stretch hostOps5
  rw [W9_v26 m ρ c]
  rfl
theorem W10_v57 : W10 m ρ c (Proc.devRef .tc main_v57) = shapeCast S1x128 (m ((c : Thread nD τ).loc main_arg4)) shapeCasts_S128_S1x128 := by
  stretch hostOps5
  rw [W9_arg4 m ρ c]
  rfl
theorem W10_v43 : W10 m ρ c (Proc.devRef .tc main_v43)
    = val_main_v53 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) := by
  stretch hostOps5; exact W9_v43 m ρ c
theorem W10_arg6 : W10 m ρ c (Proc.devRef .tc main_arg6) = m ((c : Thread nD τ).loc main_arg6) := by stretch hostOps5; exact W9_arg6 m ρ c

/-! ## Region 5: the second layer's closing step -/

theorem W11_v58 : W11 m ρ c (Proc.devRef .tc main_v58)
    = val_main_v101 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W11_arr m ρ c 4).trans ((RegFinB.final (V10 m ρ) c).trans
    ((fin_congr (W10_v55 m ρ c) (W10_v43 m ρ c) (W10_v56 m ρ c) (W10_v57 m ρ c)).trans ((fin_eq _ _ _ _ _ _).trans (v101_eq _ _ _ _ _ _).symm)))
theorem W11_arg6 : W11 m ρ c (Proc.devRef .tc main_arg6) = m ((c : Thread nD τ).loc main_arg6) :=
  (W11_of_ne m ρ c main_arg6 (by decide)).trans (W10_arg6 m ρ c)

/-! ## Stretch 6: the rows summed per graph over the node counts per graph -/

/-- The result buffer at the last boundary is the reference's last stage at the launch arguments. -/
theorem result : W12 m ρ c (Proc.devRef .tc main_v70)
    = val_main_v113 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  stretch hostOps6
  rw [W11_v58 m ρ c, W11_arg6 m ρ c]
  rfl

end Cert.KernelIdeal.Walk

end
-- ==== Proof.lean ====
/-
  A two-layer graph convolution with a leaky activation and a mean over each graph, computed two ways, is one function of
  its inputs over the extended reals.

  Both programs first read the edge list: source and target node of every edge (a negative index wrapped once), the
  in-degree of every node plus one, its inverse square root dinv, the per-edge coefficient dinv[src] · dinv[dst] and the
  per-node coefficient dinv². A layer maps node features x to
      leaky ( Σ over edges into the node of (x W)[src] · coefficient  +  (x W)[node] · dinv[node]²  +  b ),
  leaky v being v where v > 0 and 0.01 · v elsewhere; the result is the second layer's rows summed per graph, divided by
  the larger of the graph's node count and one.

  The kernel program computes x W, the scaling of the gathered rows and the closing step of each layer in six tiled
  regions (blocks of 5000 nodes or 10000 edges; the linear map's operands cast to a narrower float format first, which
  over the extended reals is the identity) and everything irregular — gathers, scatters, the degree — with the very host
  operations of the reference. Each region's blocks tile its output array, so each region computes one whole-array
  function (Spec.lean; RegMatmulA/B, RegScaleA/B, RegFinA/B); those functions are the reference's own stages read entry by
  entry (Bridge.lean: a product as a sum over the contraction coordinate; a reshape of a vector to a column or a row
  against the reference's broadcasts); and following the result buffer from the launch memory through the stretches and
  regions (Walk.lean) gives the reference's last stage at the launch arguments. No law beyond reading both sides entry by
  entry is used, so the precondition is never opened. The idealization rewrote nothing, so there is nothing to preserve.
-/
import proofs.«130153_j27066883899917_1_alg».proof.Defs
import proofs.«130153_j27066883899917_1_alg».proof.Proof.Gen.Kernel
import proofs.«130153_j27066883899917_1_alg».proof.Proof.Gen.Kernel.Skeleton
import proofs.«130153_j27066883899917_1_alg».proof.Proof.Gen.Kernel.Launch
import proofs.«130153_j27066883899917_1_alg».proof.Proof.Gen.Kernel.Points
import proofs.«130153_j27066883899917_1_alg».proof.Proof.Gen.Kernel.Frame
import proofs.«130153_j27066883899917_1_alg».proof.Proof.Gen.KernelIdeal
import proofs.«130153_j27066883899917_1_alg».proof.Proof.Gen.KernelIdeal.Skeleton
import proofs.«130153_j27066883899917_1_alg».proof.Proof.Gen.KernelIdeal.Launch
import proofs.«130153_j27066883899917_1_alg».proof.Proof.Gen.KernelIdeal.Points
import proofs.«130153_j27066883899917_1_alg».proof.Proof.Gen.KernelIdeal.Frame
import proofs.«130153_j27066883899917_1_alg».proof.Proof.Gen.ReferenceIdeal
import proofs.«130153_j27066883899917_1_alg».proof.Proof.Gen.Pre_finite_inputs
import proofs.«130153_j27066883899917_1_alg».proof.Proof.Gen.ReferenceIdeal.Run
import proofs.«130153_j27066883899917_1_alg».proof.Proof.Gen.ReferenceIdeal.Read
import proofs.«130153_j27066883899917_1_alg».proof.Proof.KRun
import proofs.«130153_j27066883899917_1_alg».proof.Proof.Walk
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the reference's last stage at those arguments:
    the kernel program by its run with the result named and the walk through its boundaries, the reference by its own run. -/
theorem algebraic : Cert.algebraic_KernelIdeal_ReferenceIdeal := by
  intro m ρ m' ρ' _ hagree
  refine ⟨fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Walk.result m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v113_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
